-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x50 : Shape := ⟨2, ![50000, 50]⟩
abbrev S50x64 : Shape := ⟨2, ![50, 64]⟩
abbrev S64x121 : Shape := ⟨2, ![64, 121]⟩
abbrev S2x800000 : Shape := ⟨2, ![2, 800000]⟩
abbrev S_ : Shape := ⟨0, ![]⟩

class Facts : Prop where
  bcast_S_S50000x50 : S_.BroadcastsInDim S50000x50 (![] : Fin 0 → Fin S50000x50.rank)
  reducesTo_S50000x50_S_d0_1 : S50000x50.ReducesTo [0, 1] S_
  h_S_ : 0 < S_.numel
  bcast_S_S50x64 : S_.BroadcastsInDim S50x64 (![] : Fin 0 → Fin S50x64.rank)
  reducesTo_S50x64_S_d0_1 : S50x64.ReducesTo [0, 1] S_
  bcast_S_S64x121 : S_.BroadcastsInDim S64x121 (![] : Fin 0 → Fin S64x121.rank)
  reducesTo_S64x121_S_d0_1 : S64x121.ReducesTo [0, 1] S_

variable [Facts]

def fn {F : FTy → Type} [FloatOps F] (main_arg0 : FVec F S50000x50 .f32) (main_arg1 : FVec F S50x64 .f32) (main_arg2 : FVec F S64x121 .f32) (main_arg3 : IVec S2x800000 32) : IVec S_ 1 :=
  let main_v0 : FVec F S50000x50 .f32 := Host.absf main_arg0
  let main_cst : FVec F S_ .f32 := constant S_ .f32 0x7F800000#32
  let main_v1 : FVec F S50000x50 .f32 := broadcastInDim S50000x50 ![] bcast_S_S50000x50 main_cst
  let main_v2 : IVec S50000x50 1 := cmpf .olt main_v0 main_v1
  let main_c : IVec S_ 1 := constantI S_ 1 1#1
  let main_v3 : IVec S_ 1 := (fun x v => Host.reduce IntOp.andi x v reducesTo_S50000x50_S_d0_1 h_S_) main_v2 main_c
  let main_v4 : FVec F S50x64 .f32 := Host.absf main_arg1
  let main_cst_0 : FVec F S_ .f32 := constant S_ .f32 0x7F800000#32
  let main_v5 : FVec F S50x64 .f32 := broadcastInDim S50x64 ![] bcast_S_S50x64 main_cst_0
  let main_v6 : IVec S50x64 1 := cmpf .olt main_v4 main_v5
  let main_c_1 : IVec S_ 1 := constantI S_ 1 1#1
  let main_v7 : IVec S_ 1 := (fun x v => Host.reduce IntOp.andi x v reducesTo_S50x64_S_d0_1 h_S_) main_v6 main_c_1
  let main_v8 : IVec S_ 1 := andi main_v3 main_v7
  let main_v9 : FVec F S64x121 .f32 := Host.absf main_arg2
  let main_cst_2 : FVec F S_ .f32 := constant S_ .f32 0x7F800000#32
  let main_v10 : FVec F S64x121 .f32 := broadcastInDim S64x121 ![] bcast_S_S64x121 main_cst_2
  let main_v11 : IVec S64x121 1 := cmpf .olt main_v9 main_v10
  let main_c_3 : IVec S_ 1 := constantI S_ 1 1#1
  let main_v12 : IVec S_ 1 := (fun x v => Host.reduce IntOp.andi x v reducesTo_S64x121_S_d0_1 h_S_) main_v11 main_c_3
  let main_v13 : IVec S_ 1 := andi main_v8 main_v12
  main_v13
-- ==== Kernel.lean ====
abbrev S50000x50 : Shape := ⟨2, ![50000, 50]⟩
abbrev S50x64 : Shape := ⟨2, ![50, 64]⟩
abbrev S64x121 : Shape := ⟨2, ![64, 121]⟩
abbrev S2x800000 : Shape := ⟨2, ![2, 800000]⟩
abbrev S1x800000 : Shape := ⟨2, ![1, 800000]⟩
abbrev S800000 : Shape := ⟨1, ![800000]⟩
abbrev S50000x64 : Shape := ⟨2, ![50000, 64]⟩
abbrev S2000x50 : Shape := ⟨2, ![2000, 50]⟩
abbrev S2000x64 : Shape := ⟨2, ![2000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S50000x121 : Shape := ⟨2, ![50000, 121]⟩
abbrev S2000x121 : Shape := ⟨2, ![2000, 121]⟩
abbrev S850000x121 : Shape := ⟨2, ![850000, 121]⟩

abbrev nBuf : Space → Nat
  | .hbm => 101
  | .vmem => 10
  | .smem => 0
  | _ => 0

abbrev bufTy : (tb : Table) → Fin (tcTables nBuf tb) → BufTy
  | .hbm, ⟨0, _⟩ => ⟨S50000x50, .f32⟩
  | .hbm, ⟨1, _⟩ => ⟨S50x64, .f32⟩
  | .hbm, ⟨2, _⟩ => ⟨S64x121, .f32⟩
  | .hbm, ⟨3, _⟩ => ⟨S2x800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000x64, .f32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S850000, .i32⟩
  | .hbm, ⟨21, _⟩ => ⟨S850000, .i1⟩
  | .hbm, ⟨22, _⟩ => ⟨S_, .i32⟩
  | .hbm, ⟨23, _⟩ => ⟨S850000, .i32⟩
  | .hbm, ⟨24, _⟩ => ⟨S850000, .i32⟩
  | .hbm, ⟨25, _⟩ => ⟨S850000, .i32⟩
  | .hbm, ⟨26, _⟩ => ⟨S850000x1, .i32⟩
  | .hbm, ⟨27, _⟩ => ⟨S850000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S850000, .f32⟩
  | .hbm, ⟨38, _⟩ => ⟨S850000x1, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000x64, .f32⟩
  | .hbm, ⟨48, _⟩ => ⟨S850000x64, .f32⟩
  | .hbm, ⟨49, _⟩ => ⟨S850000x64, .f32⟩
  | .hbm, ⟨50, _⟩ => ⟨S_, .f32⟩
  | .hbm, ⟨51, _⟩ => ⟨S50000x64, .f32⟩
  | .hbm, ⟨52, _⟩ => ⟨S850000x1, .i32⟩
  | .hbm, ⟨53, _⟩ => ⟨S50000x64, .f32⟩
  | .hbm, ⟨54, _⟩ => ⟨S50000x64, .f32⟩
  | .hbm, ⟨55, _⟩ => ⟨S50000x121, .f32⟩
  | .hbm, ⟨56, _⟩ => ⟨S50000, .i32⟩
  | .hbm, ⟨57, _⟩ => ⟨S850000, .i32⟩
  | .hbm, ⟨58, _⟩ => ⟨S850000, .i32⟩
  | .hbm, ⟨59, _⟩ => ⟨S_, .f32⟩
  | .hbm, ⟨60, _⟩ => ⟨S850000, .f32⟩
  | .hbm, ⟨61, _⟩ => ⟨S_, .f32⟩
  | .hbm, ⟨62, _⟩ => ⟨S50000, .f32⟩
  | .hbm, ⟨63, _⟩ => ⟨S850000x1, .i32⟩
  | .hbm, ⟨64, _⟩ => ⟨S50000, .f32⟩
  | .hbm, ⟨65, _⟩ => ⟨S50000, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000, .f32⟩
  | .hbm, ⟨84, _⟩ => ⟨S850000, .f32⟩
  | .hbm, ⟨85, _⟩ => ⟨S850000x1, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000x121, .f32⟩
  | .hbm, ⟨95, _⟩ => ⟨S850000x121, .f32⟩
  | .hbm, ⟨96, _⟩ => ⟨S850000x121, .f32⟩
  | .hbm, ⟨97, _⟩ => ⟨S_, .f32⟩
  | .hbm, ⟨98, _⟩ => ⟨S50000x121, .f32⟩
  | .hbm, ⟨99, _⟩ => ⟨S850000x1, .i32⟩
  | .hbm, ⟨100, _⟩ => ⟨S50000x121, .f32⟩
  | .local _ .vmem, ⟨0, _⟩ => ⟨S2000x50, .f32⟩
  | .local _ .vmem, ⟨1, _⟩ => ⟨S2000x50, .f32⟩
  | .local _ .vmem, ⟨2, _⟩ => ⟨S50x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x121, .f32⟩
  | .local _ .vmem, ⟨8, _⟩ => ⟨S2000x121, .f32⟩
  | .local _ .vmem, ⟨9, _⟩ => ⟨S2000x121, .f32⟩
  | _, _ => ⟨S50000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_v52 : Ref sig .tc := ⟨.hbm, 68, rfl⟩
abbrev main_c_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_c_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_13 : Ref sig .tc := ⟨.hbm, 86, rfl⟩
abbrev main_v67 : Ref sig .tc := ⟨.hbm, 87, rfl⟩
abbrev main_v68 : Ref sig .tc := ⟨.hbm, 88, rfl⟩
abbrev main_c_14 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_15 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x121 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x121 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x50_S2000x50_0_0 : ∀ a, (![0, 0] : Fin 2 → Nat) a + S2000x50.size a ≤ S2000x50.size a
  h_S2000x50 : 0 < S2000x50.numel
  bitsLt_bf16_f32 : FTy.bits .bf16 < FTy.bits .f32
  inb_S50x64_S50x64_0_0 : ∀ a, (![0, 0] : Fin 2 → Nat) a + S50x64.size a ≤ S50x64.size a
  h_S50x64 : 0 < S50x64.numel
  inb_S2000x64_S2000x64_0_0 : ∀ a, (![0, 0] : Fin 2 → Nat) a + S2000x64.size a ≤ S2000x64.size a
  h_S2000x64 : 0 < S2000x64.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S2000x64_S2000x64 : S2000x64.ShapeCasts S2000x64
  inb_S64x121_S64x121_0_0 : ∀ a, (![0, 0] : Fin 2 → Nat) a + S64x121.size a ≤ S64x121.size a
  h_S64x121 : 0 < S64x121.numel
  inb_S2000x121_S2000x121_0_0 : ∀ a, (![0, 0] : Fin 2 → Nat) a + S2000x121.size a ≤ S2000x121.size a
  h_S2000x121 : 0 < S2000x121.numel
  bcast_S850000x1_S850000x121_0_1 : S850000x1.BroadcastsInDim S850000x121 (![0, 1] : Fin 2 → Fin S850000x121.rank)
  bcast_S_S50000x121 : S_.BroadcastsInDim S50000x121 (![] : Fin 0 → Fin S50000x121.rank)
  dot_S2000x50_S50x64_S2000x64_1_0_0_1_n_n_wf : DotDims.WF S2000x50 S50x64 S2000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x121_S2000x121_1_0_0_1_n_n_wf : DotDims.WF S2000x64 S64x121 S2000x121 [1] [0] [0] [1] [] []
  gather_S50000x121_S850000x1_S850000x121_1_0_n_n_0_1_1121_wf : GatherDims.WF S50000x121 S850000x1 S850000x121 [1] [0] [] [0] [] 1 ![1, 121]
  scatter_S50000x121_S850000x1_S850000x121_1_0_0_1_wf : ScatterDims.WF S50000x121 S850000x1 S850000x121 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x50.size a ≤ S50000x50.size a
  hwx0_0 : ∀ i : grid0.Coords, EltTy.bits .f32 = 32 ∨ (Rect.block (s := S50000x50) S2000x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x64.size a ≤ S50x64.size a
  hwx0_1 : ∀ i : grid0.Coords, EltTy.bits .f32 = 32 ∨ (Rect.block (s := S50x64) S50x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x121.size a ≤ S64x121.size a
  hwx1_1 : ∀ i : grid1.Coords, EltTy.bits .f32 = 32 ∨ (Rect.block (s := S64x121) S64x121.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x121.size a ≤ S50000x121.size a
  hwx1_2 : ∀ i : grid1.Coords, EltTy.bits .f32 = 32 ∨ (Rect.block (s := S50000x121) S2000x121.size (cc1_transform_2 i) (hinb1_2 i)).WholeWords (EltTy.packing .f32)

variable [Facts₀]

def dot_S2000x50_S50x64_S2000x64_1_0_0_1_n_n : DotDims S2000x50 S50x64 S2000x64 where
  lhsContracting := [1]
  rhsContracting := [0]
  lhsNonContracting := [0]
  rhsNonContracting := [1]
  lhsBatch := []
  rhsBatch := []
  wf := dot_S2000x50_S50x64_S2000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x121_S2000x121_1_0_0_1_n_n : DotDims S2000x64 S64x121 S2000x121 where
  lhsContracting := [1]
  rhsContracting := [0]
  lhsNonContracting := [0]
  rhsNonContracting := [1]
  lhsBatch := []
  rhsBatch := []
  wf := dot_S2000x64_S64x121_S2000x121_1_0_0_1_n_n_wf
def gather_S50000x121_S850000x1_S850000x121_1_0_n_n_0_1_1121 : GatherDims S50000x121 S850000x1 S850000x121 where
  offsetDims := [1]
  collapsedSliceDims := [0]
  operandBatchingDims := []
  startIndicesBatchingDims := []
  startIndexMap := [0]
  indexVectorDim := 1
  sliceSizes := ![1, 121]
  wf := gather_S50000x121_S850000x1_S850000x121_1_0_n_n_0_1_1121_wf
def scatter_S50000x121_S850000x1_S850000x121_1_0_0_1 : ScatterDims S50000x121 S850000x1 S850000x121 where
  updateWindowDims := [1]
  insertedWindowDims := [0]
  scatterDimsToOperandDims := [0]
  indexVectorDim := 1
  wf := scatter_S50000x121_S850000x1_S850000x121_1_0_0_1_wf

abbrev win0_0 : Pipeline.Window sig grid0 :=
  Pipeline.Window.ofSpec (Memref.whole main_arg0) S2000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S50x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x121.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x121.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x50 : Shape := ⟨2, ![50000, 50]⟩
abbrev S50x64 : Shape := ⟨2, ![50, 64]⟩
abbrev S64x121 : Shape := ⟨2, ![64, 121]⟩
abbrev S2x800000 : Shape := ⟨2, ![2, 800000]⟩
abbrev S1x800000 : Shape := ⟨2, ![1, 800000]⟩
abbrev S800000 : Shape := ⟨1, ![800000]⟩
abbrev S50000x64 : Shape := ⟨2, ![50000, 64]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S50000x121 : Shape := ⟨2, ![50000, 121]⟩
abbrev S850000x121 : Shape := ⟨2, ![850000, 121]⟩

abbrev nBuf : Space → Nat
  | .hbm => 101
  | .vmem => 0
  | .smem => 0
  | _ => 0

abbrev bufTy : (tb : Table) → Fin (tcTables nBuf tb) → BufTy
  | .hbm, ⟨0, _⟩ => ⟨S50000x50, .f32⟩
  | .hbm, ⟨1, _⟩ => ⟨S50x64, .f32⟩
  | .hbm, ⟨2, _⟩ => ⟨S64x121, .f32⟩
  | .hbm, ⟨3, _⟩ => ⟨S2x800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000x64, .f32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S850000, .i32⟩
  | .hbm, ⟨21, _⟩ => ⟨S850000, .i1⟩
  | .hbm, ⟨22, _⟩ => ⟨S_, .i32⟩
  | .hbm, ⟨23, _⟩ => ⟨S850000, .i32⟩
  | .hbm, ⟨24, _⟩ => ⟨S850000, .i32⟩
  | .hbm, ⟨25, _⟩ => ⟨S850000, .i32⟩
  | .hbm, ⟨26, _⟩ => ⟨S850000x1, .i32⟩
  | .hbm, ⟨27, _⟩ => ⟨S850000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S850000, .f32⟩
  | .hbm, ⟨38, _⟩ => ⟨S850000x1, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000x64, .f32⟩
  | .hbm, ⟨48, _⟩ => ⟨S850000x64, .f32⟩
  | .hbm, ⟨49, _⟩ => ⟨S850000x64, .f32⟩
  | .hbm, ⟨50, _⟩ => ⟨S_, .f32⟩
  | .hbm, ⟨51, _⟩ => ⟨S50000x64, .f32⟩
  | .hbm, ⟨52, _⟩ => ⟨S850000x1, .i32⟩
  | .hbm, ⟨53, _⟩ => ⟨S50000x64, .f32⟩
  | .hbm, ⟨54, _⟩ => ⟨S50000x64, .f32⟩
  | .hbm, ⟨55, _⟩ => ⟨S50000x121, .f32⟩
  | .hbm, ⟨56, _⟩ => ⟨S50000, .i32⟩
  | .hbm, ⟨57, _⟩ => ⟨S850000, .i32⟩
  | .hbm, ⟨58, _⟩ => ⟨S850000, .i32⟩
  | .hbm, ⟨59, _⟩ => ⟨S_, .f32⟩
  | .hbm, ⟨60, _⟩ => ⟨S850000, .f32⟩
  | .hbm, ⟨61, _⟩ => ⟨S_, .f32⟩
  | .hbm, ⟨62, _⟩ => ⟨S50000, .f32⟩
  | .hbm, ⟨63, _⟩ => ⟨S850000x1, .i32⟩
  | .hbm, ⟨64, _⟩ => ⟨S50000, .f32⟩
  | .hbm, ⟨65, _⟩ => ⟨S50000, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000, .f32⟩
  | .hbm, ⟨84, _⟩ => ⟨S850000, .f32⟩
  | .hbm, ⟨85, _⟩ => ⟨S850000x1, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000x121, .f32⟩
  | .hbm, ⟨95, _⟩ => ⟨S850000x121, .f32⟩
  | .hbm, ⟨96, _⟩ => ⟨S850000x121, .f32⟩
  | .hbm, ⟨97, _⟩ => ⟨S_, .f32⟩
  | .hbm, ⟨98, _⟩ => ⟨S50000x121, .f32⟩
  | .hbm, ⟨99, _⟩ => ⟨S850000x1, .i32⟩
  | .hbm, ⟨100, _⟩ => ⟨S50000x121, .f32⟩
  | _, _ => ⟨S50000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_v52 : Ref sig .tc := ⟨.hbm, 68, rfl⟩
abbrev main_c_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_c_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_13 : Ref sig .tc := ⟨.hbm, 86, rfl⟩
abbrev main_v67 : Ref sig .tc := ⟨.hbm, 87, rfl⟩
abbrev main_v68 : Ref sig .tc := ⟨.hbm, 88, rfl⟩
abbrev main_c_14 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_15 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S850000x1_S850000x121_0_1 : S850000x1.BroadcastsInDim S850000x121 (![0, 1] : Fin 2 → Fin S850000x121.rank)
  bcast_S_S50000x121 : S_.BroadcastsInDim S50000x121 (![] : Fin 0 → Fin S50000x121.rank)
  dot_S50000x50_S50x64_S50000x64_1_0_0_1_n_n_wf : DotDims.WF S50000x50 S50x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x121_S50000x121_1_0_0_1_n_n_wf : DotDims.WF S50000x64 S64x121 S50000x121 [1] [0] [0] [1] [] []
  gather_S50000x121_S850000x1_S850000x121_1_0_n_n_0_1_1121_wf : GatherDims.WF S50000x121 S850000x1 S850000x121 [1] [0] [] [0] [] 1 ![1, 121]
  scatter_S50000x121_S850000x1_S850000x121_1_0_0_1_wf : ScatterDims.WF S50000x121 S850000x1 S850000x121 [1] [0] [0] 1

variable [Facts₀]

def dot_S50000x50_S50x64_S50000x64_1_0_0_1_n_n : DotDims S50000x50 S50x64 S50000x64 where
  lhsContracting := [1]
  rhsContracting := [0]
  lhsNonContracting := [0]
  rhsNonContracting := [1]
  lhsBatch := []
  rhsBatch := []
  wf := dot_S50000x50_S50x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x121_S50000x121_1_0_0_1_n_n : DotDims S50000x64 S64x121 S50000x121 where
  lhsContracting := [1]
  rhsContracting := [0]
  lhsNonContracting := [0]
  rhsNonContracting := [1]
  lhsBatch := []
  rhsBatch := []
  wf := dot_S50000x64_S64x121_S50000x121_1_0_0_1_n_n_wf
def gather_S50000x121_S850000x1_S850000x121_1_0_n_n_0_1_1121 : GatherDims S50000x121 S850000x1 S850000x121 where
  offsetDims := [1]
  collapsedSliceDims := [0]
  operandBatchingDims := []
  startIndicesBatchingDims := []
  startIndexMap := [0]
  indexVectorDim := 1
  sliceSizes := ![1, 121]
  wf := gather_S50000x121_S850000x1_S850000x121_1_0_n_n_0_1_1121_wf
def scatter_S50000x121_S850000x1_S850000x121_1_0_0_1 : ScatterDims S50000x121 S850000x1 S850000x121 where
  updateWindowDims := [1]
  insertedWindowDims := [0]
  scatterDimsToOperandDims := [0]
  indexVectorDim := 1
  wf := scatter_S50000x121_S850000x1_S850000x121_1_0_0_1_wf

class Facts : Prop extends Facts₀ where

variable [Facts]
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.HostProduct.lean ====
/-
  The host's matrix product [M, K] x [K, N] read at an entry, over the extended reals.

  With the plain dimension numbers (the left operand's axis 1 contracted with the right operand's axis 0, no batch axes) the
  host's product has the same entries as the product into a zero accumulator: entry (r, c) is the sum over k of
  a (r, k) * b (k, c). The four coordinate facts about the operands' indices are those of the accumulator form.
-/
import proofs.«161016_j20882130993418_1_alg».proof.Proof.LibPlainMatmul

noncomputable section

namespace Cert.PlainMatmul

open Idealize.ShloMosaic Idealize.ShloMosaic.ValueIdx

variable {M K N : ℕ}

/-- Entry (r, c) of the host's product is the sum over k of a (r, k) * b (k, c). -/
theorem host_apply (prec : Option ContractPrecision) {φ₁ φ₂ : FTy} (a : FVec Ideal ⟨2, ![M, K]⟩ φ₁) (b : FVec Ideal ⟨2, ![K, N]⟩ φ₂)
    (r : Fin M) (c : Fin N) :
    Host.dotGeneral (DotDims.plain M K N) prec a b (ix2 r c) = ∑ k : Fin K, a (ix2 r k) * b (ix2 k c) := by
  show FloatOps.dotGeneral (DotDims.plain M K N) prec .single a b (ix2 r c) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.FirstProduct.lean ====
/-
  The first pallas_call's output array: features [50000, 50] times the first weight [50, 64], as the host's product.

  The region's grid has 25 points; point t reads rows 2000 t … 2000 t + 1999 of the left matrix (all 50 columns) and the
  whole right matrix, and writes the product of the two into rows 2000 t … 2000 t + 1999 of the output. The body narrows
  both operands to bf16 and multiplies into a zero accumulator; over the extended reals the narrowing is the identity, so
  entry (p, q) of the block is the sum over k of left (2000 t + p, k) * right (k, q): the entry (2000 t + p, q) of the host's
  whole product. The 25 blocks tile the 50000 rows, so the output array ends as the whole product.
-/
import proofs.«161016_j20882130993418_1_alg».proof.Proof.Gen.KernelIdeal.Frame
import proofs.«161016_j20882130993418_1_alg».proof.Proof.HostProduct
import Idealize.ShloMosaic.Lib.Pipeline.Value
import Idealize.ShloMosaic.Lib.ValueIdx

set_option maxRecDepth 16384

noncomputable section

namespace Cert.KernelIdeal.FirstProduct

open Cert.KernelIdeal Cert.KernelIdeal.Gen
open Idealize.ShloMosaic Idealize.ShloMosaic.TcCoe Idealize.SL.Sem Idealize.ShloMosaic.ValueIdx
open Idealize.ShloMosaic.Pipeline (Dat)

/-- The whole product of the left matrix [50000, 50] and the right matrix [50, 64], as the host computes it. -/
def product (a : FVec Ideal S50000x50 .f32) (b : FVec Ideal S50x64 .f32) : FVec Ideal S50000x64 .f32 :=
  Host.dotGeneral (DotDims.plain 50000 50 64) none a b

theorem zero_offsets : (![0, 0] : Fin 2 → Nat) = fun _ => 0 := funext fun a => by fin_cases a <;> rfl

/-- Entry (p, q) of the body's stored value: the sum over k of the left block's (p, k) times the right block's (k, q). -/
theorem stored_apply (x0 : Vec Ideal S2000x50 .f32) (x1 : Vec Ideal S50x64 .f32) (p : Fin 2000) (q : Fin 64) :
    k0_pay1 (F := Ideal) x0 x1 (ix2 p q) = ∑ k : Fin 50, x0 (ix2 p k) * x1 (ix2 k q) := by
  unfold k0_pay1
  exact Cert.PlainMatmul.apply (M := 2000) (K := 50) (N := 64) none _ _ p q

/-- The block a point stores is the block of the whole product, when the left block's rows are the rows of the left matrix
    at the output block's row offset and the right block is the right matrix. -/
theorem stored_eq_product (x0 : Vec Ideal S2000x50 .f32) (x1 : Vec Ideal S50x64 .f32)
    (a : FVec Ideal S50000x50 .f32) (b : FVec Ideal S50x64 .f32) (p : Fin 2000) (q : Fin 64) (R : Fin 50000)
    (h0 : ∀ k : Fin 50, x0 (ix2 p k) = a (ix2 R k)) (h1 : ∀ k : Fin 50, x1 (ix2 k q) = b (ix2 k q)) :
    k0_pay1 (F := Ideal) x0 x1 (ix2 p q) = product a b (ix2 R q) := by
  rw [stored_apply]
  unfold product
  rw [Cert.PlainMatmul.host_apply]
  exact Finset.sum_congr rfl fun k _ => by rw [h0 k, h1 k]

/-- The printed index maps over the grid: the left window and the output window sit at block row t, column block 0;
    the right window stays at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the arrays the region finds. -/
theorem flushed_eq (c : Dev nD) (t : Fin cfg0.N) :
    (dat0 V c).flushed 2 t = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero zero_offsets]
  simp only [View.ld_unit_zero (S := S2000x50) zero_offsets, View.ld_unit_zero (S := S50x64) zero_offsets]
  obtain ⟨e00, e01, e10, e11, e20, e21⟩ := index_facts t
  funext j
  obtain ⟨p, q, rfl⟩ : ∃ (p : Fin 2000) (q : Fin 64), j = ix2 p q := ⟨j 0, j 1, eq_ix2 j⟩
  have ht : t.val < 25 := t.isLt
  have hR : t.val * 2000 + p.val < 50000 := by have := p.isLt; omega
  have hemb : ((cfg0.win 2).blk t).view.emb (ix2 p q) = ix2 (⟨t.val * 2000 + p.val, hR⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 64 + 1 * q.val = q.val; omega
  show k0_pay1 (F := Ideal) (iblk0 V c 0 t) (iblk0 V c 1 t) (ix2 p q) = product (V c main_arg0) (V c main_arg1) (((cfg0.win 2).blk t).view.emb (ix2 p q))
  rw [hemb]
  refine stored_eq_product (iblk0 V c 0 t) (iblk0 V c 1 t) (V c main_arg0) (V c main_arg1) p q ⟨t.val * 2000 + p.val, hR⟩ (fun k => ?_) (fun k => ?_)
  · show V c main_arg0 (((cfg0.win 0).blk t).view.emb (ix2 p k)) = V c main_arg0 (ix2 (⟨t.val * 2000 + p.val, hR⟩ : Fin 50000) k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 50 + 1 * k.val = k.val; omega
  · show V c main_arg1 (((cfg0.win 1).blk t).view.emb (ix2 k q)) = V c main_arg1 (ix2 k q)
    refine congrArg _ (funext fun a => Fin.ext ?_)
    match a with
    | ⟨0, _⟩ => show win0_1.index t (0 : Fin 2) * 50 + 1 * k.val = k.val; omega
    | ⟨1, _⟩ => show win0_1.index t (1 : Fin 2) * 64 + 1 * q.val = q.val; omega

/-- An index of the output array is in point t's block iff its row is among the block's 2000 rows. -/
theorem mem_block (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v4).slice (win0_2.rect t)).set ↔ _
  rw [View.set_slice_whole, Rect.mem_set_unit]
  exact Iff.rfl

/-- Row r of the output lies in the block of point r / 2000. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 25 := N_0
  let t : Fin cfg0.N := ⟨(i 0).val / 2000, by rw [hN]; omega⟩
  obtain ⟨e00, e01, e10, e11, e20, e21⟩ := index_facts t
  have htv : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the region the output array is the whole product of the two arrays the region finds. -/
theorem array_eq (c : Dev nD) : (dat0 V c).arrAt 2 cfg0.N = product (V c main_arg0) (V c main_arg1) :=
  (dat0 V c).arrAt_eq_of_cover 2 (product (V c main_arg0) (V c main_arg1)) (fun t _ => flushed_eq V c t) covered

end Cert.KernelIdeal.FirstProduct

end
-- ==== Proof.SecondProduct.lean ====
/-
  The second pallas_call's output array: hidden features [50000, 64] times the second weight [64, 121], as the host's product.

  The region's grid has 25 points; point t reads rows 2000 t … 2000 t + 1999 of the left matrix (all 64 columns) and the
  whole right matrix, and writes the product of the two into rows 2000 t … 2000 t + 1999 of the output. The body narrows
  both operands to bf16 (the left one after a reshape to its own shape, the identity) and multiplies into a zero accumulator; over the extended reals the narrowing is the identity, so
  entry (p, q) of the block is the sum over k of left (2000 t + p, k) * right (k, q): the entry (2000 t + p, q) of the host's
  whole product. The 25 blocks tile the 50000 rows, so the output array ends as the whole product.
-/
import proofs.«161016_j20882130993418_1_alg».proof.Proof.Gen.KernelIdeal.Frame
import proofs.«161016_j20882130993418_1_alg».proof.Proof.HostProduct
import Idealize.ShloMosaic.Lib.Pipeline.Value
import Idealize.ShloMosaic.Lib.ValueIdx

set_option maxRecDepth 16384

noncomputable section

namespace Cert.KernelIdeal.SecondProduct

open Cert.KernelIdeal Cert.KernelIdeal.Gen
open Idealize.ShloMosaic Idealize.ShloMosaic.TcCoe Idealize.SL.Sem Idealize.ShloMosaic.ValueIdx
open Idealize.ShloMosaic.Pipeline (Dat)

/-- The whole product of the left matrix [50000, 64] and the right matrix [64, 121], as the host computes it. -/
def product (a : FVec Ideal S50000x64 .f32) (b : FVec Ideal S64x121 .f32) : FVec Ideal S50000x121 .f32 :=
  Host.dotGeneral (DotDims.plain 50000 64 121) none a b

theorem zero_offsets : (![0, 0] : Fin 2 → Nat) = fun _ => 0 := funext fun a => by fin_cases a <;> rfl

/-- Entry (p, q) of the body's stored value: the sum over k of the left block's (p, k) times the right block's (k, q). -/
theorem stored_apply (x0 : Vec Ideal S2000x64 .f32) (x1 : Vec Ideal S64x121 .f32) (p : Fin 2000) (q : Fin 121) :
    k1_pay1 (F := Ideal) x0 x1 (ix2 p q) = ∑ k : Fin 64, x0 (ix2 p k) * x1 (ix2 k q) := by
  unfold k1_pay1
  refine (Cert.PlainMatmul.apply (M := 2000) (K := 64) (N := 121) none _ _ p q).trans ?_
  refine Finset.sum_congr rfl fun k _ => ?_
  show (shapeCast S2000x64 x0 shapeCasts_S2000x64_S2000x64) (ix2 p k) * x1 (ix2 k q) = _
  rw [shapeCast_self]

/-- The block a point stores is the block of the whole product, when the left block's rows are the rows of the left matrix
    at the output block's row offset and the right block is the right matrix. -/
theorem stored_eq_product (x0 : Vec Ideal S2000x64 .f32) (x1 : Vec Ideal S64x121 .f32)
    (a : FVec Ideal S50000x64 .f32) (b : FVec Ideal S64x121 .f32) (p : Fin 2000) (q : Fin 121) (R : Fin 50000)
    (h0 : ∀ k : Fin 64, x0 (ix2 p k) = a (ix2 R k)) (h1 : ∀ k : Fin 64, x1 (ix2 k q) = b (ix2 k q)) :
    k1_pay1 (F := Ideal) x0 x1 (ix2 p q) = product a b (ix2 R q) := by
  rw [stored_apply]
  unfold product
  rw [Cert.PlainMatmul.host_apply]
  exact Finset.sum_congr rfl fun k _ => by rw [h0 k, h1 k]

/-- The printed index maps over the grid: the left window and the output window sit at block row t, column block 0;
    the right window stays at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the whole product of the arrays the region finds. -/
theorem flushed_eq (c : Dev nD) (t : Fin cfg1.N) :
    (dat1 V c).flushed 2 t = ((cfg1.win 2).blk t).view.read (Elt Ideal) (product (V c main_v41) (V c main_arg2)) := by
  show (cfg1.win 2).cut (grid1.coords t) ((dat1 V c).after 2 t) = _
  rw [after1_2]
  unfold out1_2
  rw [View.canon_unit_zero zero_offsets]
  simp only [View.ld_unit_zero (S := S2000x64) zero_offsets, View.ld_unit_zero (S := S64x121) zero_offsets]
  obtain ⟨e00, e01, e10, e11, e20, e21⟩ := index_facts t
  funext j
  obtain ⟨p, q, rfl⟩ : ∃ (p : Fin 2000) (q : Fin 121), j = ix2 p q := ⟨j 0, j 1, eq_ix2 j⟩
  have ht : t.val < 25 := t.isLt
  have hR : t.val * 2000 + p.val < 50000 := by have := p.isLt; omega
  have hemb : ((cfg1.win 2).blk t).view.emb (ix2 p q) = ix2 (⟨t.val * 2000 + p.val, hR⟩ : Fin 50000) q := by
    funext a; apply Fin.ext
    match a with
    | ⟨0, _⟩ => show win1_2.index t (0 : Fin 2) * 2000 + 1 * p.val = t.val * 2000 + p.val; omega
    | ⟨1, _⟩ => show win1_2.index t (1 : Fin 2) * 121 + 1 * q.val = q.val; omega
  show k1_pay1 (F := Ideal) (iblk1 V c 0 t) (iblk1 V c 1 t) (ix2 p q) = product (V c main_v41) (V c main_arg2) (((cfg1.win 2).blk t).view.emb (ix2 p q))
  rw [hemb]
  refine stored_eq_product (iblk1 V c 0 t) (iblk1 V c 1 t) (V c main_v41) (V c main_arg2) p q ⟨t.val * 2000 + p.val, hR⟩ (fun k => ?_) (fun k => ?_)
  · show V c main_v41 (((cfg1.win 0).blk t).view.emb (ix2 p k)) = V c main_v41 (ix2 (⟨t.val * 2000 + p.val, hR⟩ : Fin 50000) k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 64 + 1 * k.val = k.val; omega
  · show V c main_arg2 (((cfg1.win 1).blk t).view.emb (ix2 k q)) = V c main_arg2 (ix2 k q)
    refine congrArg _ (funext fun a => Fin.ext ?_)
    match a with
    | ⟨0, _⟩ => show win1_1.index t (0 : Fin 2) * 64 + 1 * k.val = k.val; omega
    | ⟨1, _⟩ => show win1_1.index t (1 : Fin 2) * 121 + 1 * q.val = q.val; omega

/-- An index of the output array is in point t's block iff its row is among the block's 2000 rows. -/
theorem mem_block (t : Fin cfg1.N) (i : S50000x121.Idx) :
    i ∈ ((cfg1.win 2).blk t).view.set ↔ ∀ a : Fin 2, win1_2.index t a * S2000x121.size a ≤ (i a).val ∧ (i a).val < win1_2.index t a * S2000x121.size a + S2000x121.size a := by
  show i ∈ ((View.whole main_v42).slice (win1_2.rect t)).set ↔ _
  rw [View.set_slice_whole, Rect.mem_set_unit]
  exact Iff.rfl

/-- Row r of the output lies in the block of point r / 2000. -/
theorem covered (i : S50000x121.Idx) :
    ∃ t : Fin cfg1.N, (cfg1.win 2).flush t = true ∧ i ∈ ((cfg1.win 2).blk t).view.set := by
  have hi0 : (i 0).val < 50000 := (i 0).isLt
  have hi1 : (i 1).val < 121 := (i 1).isLt
  have hN : cfg1.N = 25 := N_1
  let t : Fin cfg1.N := ⟨(i 0).val / 2000, by rw [hN]; omega⟩
  obtain ⟨e00, e01, e10, e11, e20, e21⟩ := index_facts t
  have htv : t.val = (i 0).val / 2000 := rfl
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 121 ≤ (i 1).val ∧ (i 1).val < win1_2.index t (1 : Fin 2) * 121 + 121; omega

/-- After the region the output array is the whole product of the two arrays the region finds. -/
theorem array_eq (c : Dev nD) : (dat1 V c).arrAt 2 cfg1.N = product (V c main_v41) (V c main_arg2) :=
  (dat1 V c).arrAt_eq_of_cover 2 (product (V c main_v41) (V c main_arg2)) (fun t _ => flushed_eq V c t) covered

end Cert.KernelIdeal.SecondProduct

end
-- ==== Proof.Bridge.lean ====
/-
  The kernel program's result buffer and the reference's composed term are the same extended reals.

  The kernel program is the reference's line of host operations with each of its two matrix products replaced by a
  pallas_call. After the first call its output array is the host's product of the features and the first weight
  (FirstProduct), after the second the host's product of the hidden features and the second weight (SecondProduct); every
  other buffer a host operation reads is written by the same operation, from the same operands, in both programs. So the
  result buffer, read back through the three stretches of host operations and the two calls, is the reference's term.
-/
import proofs.«161016_j20882130993418_1_alg».proof.Proof.FirstProduct
import proofs.«161016_j20882130993418_1_alg».proof.Proof.SecondProduct
import proofs.«161016_j20882130993418_1_alg».proof.Proof.Gen.ReferenceIdeal.Run
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- After the first call, its output array holds the product of what its two input arrays held when it was entered. -/
theorem first_output (c : Dev nD) :
    W2 m ρ c (Proc.devRef .tc main_v4)
      = FirstProduct.product (W1 m ρ c (Proc.devRef .tc main_arg0)) (W1 m ρ c (Proc.devRef .tc main_arg1)) :=
  (W2_arr m ρ c 2).trans (FirstProduct.array_eq (V1 m ρ) c)

/-- After the second call, its output array holds the product of what its two input arrays held when it was entered. -/
theorem second_output (c : Dev nD) :
    W4 m ρ c (Proc.devRef .tc main_v42)
      = SecondProduct.product (W3 m ρ c (Proc.devRef .tc main_v41)) (W3 m ρ c (Proc.devRef .tc main_arg2)) :=
  (W4_arr m ρ c 2).trans (SecondProduct.array_eq (V3 m ρ) c)

set_option maxHeartbeats 40000000 in
/-- The result buffer at the last boundary is the reference's term of arguments that agree. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    W5 m ρ c (Proc.devRef .tc main_v78) = Cert.ReferenceIdeal.Value.res_main_v78 m' c := by
  unfold Cert.ReferenceIdeal.Value.res_main_v78
  rw [h0, h1, h2, h3]
  -- the last stretch of host operations, read back to the second call's output array and to the two index vectors
  show StableHlo.after hostOps2 (W4 m ρ c) (Proc.devRef .tc main_v78) = _
  after_results_simp
  rw [second_output m ρ c]
  -- the middle stretch, read back to the first call's output array
  simp only [W3]
  after_results_simp
  rw [first_output m ρ c]
  -- what is left on both sides is one tree of host operations over the same arguments: the two index vectors are read
  -- back through the calls (which do not write them) to the first stretch's slices of the edge list
  rfl

end Cert.KernelIdeal.Bridge

end
-- ==== Proof.lean ====
/- The proof of `Cert.Claim`: a two-layer graph convolution whose two dense products run as pallas_calls, against the
   plain jnp reference.

   Each layer is  out = scatter-add over edges (with self-loops) of  dinv[src] * dinv[dst] * (h W)[src],  with
   dinv = rsqrt (degree). The kernel program computes the products x W1 and tanh (layer 1) W2 in two pallas_calls, each over
   25 row blocks of 2000 rows with the operands narrowed to bf16 and a zero f32 accumulator; everything else (degrees, gathers,
   scatter-adds, tanh) is the same line of host operations in both programs. Over the extended reals the narrowing is the
   identity and a block's product is the matching rows of the host's whole product (FirstProduct, SecondProduct), so the
   result buffer of the kernel program, read back through its host operations and calls, is the reference's term (Bridge).
   The frames of the two kernel programs are the generated ones; the reference's is its generated run with the result
   dropped; the ideal pass rewrote nothing, so `preserves` is trivial. No step uses finiteness of the inputs. -/
import proofs.«161016_j20882130993418_1_alg».proof.Defs
import proofs.«161016_j20882130993418_1_alg».proof.Proof.Gen.Kernel
import proofs.«161016_j20882130993418_1_alg».proof.Proof.Gen.Kernel.Skeleton
import proofs.«161016_j20882130993418_1_alg».proof.Proof.Gen.Kernel.Launch
import proofs.«161016_j20882130993418_1_alg».proof.Proof.Gen.Kernel.Points
import proofs.«161016_j20882130993418_1_alg».proof.Proof.Gen.Kernel.Frame
import proofs.«161016_j20882130993418_1_alg».proof.Proof.Gen.KernelIdeal
import proofs.«161016_j20882130993418_1_alg».proof.Proof.Gen.KernelIdeal.Skeleton
import proofs.«161016_j20882130993418_1_alg».proof.Proof.Gen.KernelIdeal.Launch
import proofs.«161016_j20882130993418_1_alg».proof.Proof.Gen.KernelIdeal.Points
import proofs.«161016_j20882130993418_1_alg».proof.Proof.Gen.KernelIdeal.Frame
import proofs.«161016_j20882130993418_1_alg».proof.Proof.Gen.ReferenceIdeal
import proofs.«161016_j20882130993418_1_alg».proof.Proof.Gen.ReferenceIdeal.Run
import proofs.«161016_j20882130993418_1_alg».proof.Proof.ResultRun
import proofs.«161016_j20882130993418_1_alg».proof.Proof.Bridge
import proofs.«161016_j20882130993418_1_alg».proof.Proof.Gen.Pre_finite_inputs
import Idealize.ShloMosaic.Adequacy
import Idealize.ShloMosaic.Init

noncomputable section

namespace Cert.Proof

open Idealize.ShloMosaic Idealize.SL.Sem Cert.Kernel

/-- The reference terminates with its arguments unchanged: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the reference's term in the result buffer:
    the reference by its generated run, the kernel program by its run with the result buffer named and the bridge. -/
theorem algebraic : Cert.algebraic_KernelIdeal_ReferenceIdeal := by
  intro m ρ m' ρ' _ hagree
  refine ⟨fun c => Cert.ReferenceIdeal.Value.res_main_v78 m' c, ?_, Cert.ReferenceIdeal.Value.run (F := Ideal) m' ρ'⟩
  refine (θ_run Cert.KernelIdeal.defs _ _).mono (fun r h c => ⟨(h c).1.trans ?_, (h c).2⟩)
    (Cert.KernelIdeal.ResultRun.run_result (F := Ideal) m ρ)
  exact Cert.KernelIdeal.Bridge.result_eq m ρ m' c (hagree c).1 (hagree c).2.1 (hagree c).2.2.1 (hagree c).2.2.2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
